-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 65
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S1x128, .f32⟩
  | .hbm, ⟨64, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .i1⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S50000x1, .f32⟩
  | .hbm, ⟨77, _⟩ => ⟨S_, .f32⟩
  | .hbm, ⟨78, _⟩ => ⟨S50000x1, .f32⟩
  | .hbm, ⟨79, _⟩ => ⟨S50000x1, .f32⟩
  | .hbm, ⟨80, _⟩ => ⟨S50000x128, .f32⟩
  | .hbm, ⟨81, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  What both programs compute, as functions of whole arrays over the extended reals.

  `prod x w` is the linear transform `x · w`: entry `(r, c)` is `∑ₖ x(r,k) · w(k,c)`.  `act agg b a` adds the bias row and
  applies PReLU with the per-channel slope: `v = agg + b`, kept where `v ≥ 0` and `a · v` elsewhere.  `normalized`
  divides each entry by its row's Euclidean norm, floored at the literal `ε` (the f32 nearest 1e-12, the same word in
  both programs, so it is never evaluated).  The message passing in between (degrees, gather, scatter-add) is the same
  host operations in both programs and is carried as one function of `x · w`, not opened here.
  Only sums of products occur, so no law used needs finite inputs.
-/
import Idealize.ShloMosaic.PureOps.Ideal
import Idealize.ShloMosaic.PureOps.Vector

noncomputable section

namespace Cert.Spec

open Idealize.ShloMosaic

/-- Node features: 50000 nodes, 128 channels. -/
abbrev Nodes : Shape := ⟨2, ![50000, 128]⟩
/-- The weight matrix. -/
abbrev Weight : Shape := ⟨2, ![128, 128]⟩
/-- A per-channel vector laid out as one row. -/
abbrev Row : Shape := ⟨2, ![1, 128]⟩
/-- A per-channel vector. -/
abbrev Chan : Shape := ⟨1, ![128]⟩

/-- Row `i 0` at column `k`. -/
abbrev rowAt (i : Nodes.Idx) (k : Fin 128) : Nodes.Idx := fun a => match a with
  | ⟨0, _⟩ => ⟨(i 0).val, (i 0).isLt⟩
  | ⟨1, _⟩ => ⟨k.val, k.isLt⟩
/-- Row `k` of the weight at column `i 1`. -/
abbrev colAt (i : Nodes.Idx) (k : Fin 128) : Weight.Idx := fun a => match a with
  | ⟨0, _⟩ => ⟨k.val, k.isLt⟩
  | ⟨1, _⟩ => ⟨(i 1).val, (i 1).isLt⟩
/-- The lane of a one-row vector under column `i 1`. -/
abbrev laneOf (i : Nodes.Idx) : Row.Idx := fun a => match a with
  | ⟨0, _⟩ => ⟨0, Nat.one_pos⟩
  | ⟨1, _⟩ => ⟨(i 1).val, (i 1).isLt⟩
/-- The channel a lane of a one-row vector holds. -/
abbrev chanOf (i : Row.Idx) : Chan.Idx := fun a => match a with
  | ⟨0, _⟩ => ⟨(i 1).val, (i 1).isLt⟩

/-- The linear transform: entry `(r, c)` is `∑ₖ x(r,k) · w(k,c)`. -/
def prod (x : Nodes.Idx → Ideal .f32) (w : Weight.Idx → Ideal .f32) : Nodes.Idx → Ideal .f32 :=
  fun i => ∑ k : Fin 128, x (rowAt i k) * w (colAt i k)

/-- A per-channel vector as one row. -/
def asRow (v : Chan.Idx → Ideal .f32) : Row.Idx → Ideal .f32 := fun i => v (chanOf i)

/-- Bias, then PReLU: `v = agg + b`, kept where `v ≥ 0`, scaled by the lane's slope elsewhere. -/
def act (agg : Nodes.Idx → Ideal .f32) (b a : Row.Idx → Ideal .f32) : Nodes.Idx → Ideal .f32 := fun i =>
  Scalar.select (FloatOps.cmpf .oge (FloatOps.addf (agg i) (b (laneOf i))) (FloatOps.ofBits .f32 0x00000000#32))
    (FloatOps.addf (agg i) (b (laneOf i))) (FloatOps.mulf (a (laneOf i)) (FloatOps.addf (agg i) (b (laneOf i))))

/-- Each entry over its row's norm, the norm floored at `ε`. -/
def normalized (agg : Nodes.Idx → Ideal .f32) (b a : Row.Idx → Ideal .f32) : Nodes.Idx → Ideal .f32 := fun i =>
  FloatOps.divf (act agg b a i)
    (FloatOps.maximumf (FloatOps.sqrt (∑ k : Fin 128, FloatOps.mulf (act agg b a (rowAt i k)) (act agg b a (rowAt i k))))
      (FloatOps.ofBits .f32 0x2B8CBCCC#32))

end Cert.Spec

end
-- ==== Proof.RefValue.lean ====
/-
  The reference's result as the shared function of its arguments.

  The reference computes `h = x · W` by one host product, passes messages (degrees, the two gathers of the
  normalisation, the gather of `h`, the scatter-add), then adds the bias, applies PReLU and divides each row by its
  norm floored at `ε`.  Read stage by stage, its result at an index is `Spec.normalized (aggOf (x · W) edges) bias slope`
  there: the message passing `aggOf` is carried as one function of `h` and the edge list and is never opened; the
  host's sum over the lanes starts from a zero, which drops; the host's square root and quotient are the same
  functions on the extended reals as the kernel's.
-/
import proofs.«141192_j2714419331813_1_alg».proof.Proof.RefRead
import proofs.«141192_j2714419331813_1_alg».proof.Proof.Spec

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

section AnyFloats

variable {F : FTy → Type} [FloatOps F]

/-- The message passing as one function of the transformed features `h` and the edge list: the rows of `h` gathered
    at the source nodes, scaled by the edges' normalisation, and scatter-added at the destination nodes. -/
def aggOf (h : (⟨S50000x128, .f32⟩ : BufTy).Contents (Elt F)) (x1 : (⟨S2x800000, .i32⟩ : BufTy).Contents (Elt F)) :
    (⟨S50000x128, .f32⟩ : BufTy).Contents (Elt F) :=
  Host.scatterAdd scatter_S50000x128_S850000x1_S850000x128_1_0_0_1 (val_main_v41 (F := F)) (val_main_v42 (F := F) x1)
    (mulf (Host.gather gather_S50000x128_S850000x1_S850000x128_1_0_n_n_0_1_1128 h (val_main_v36 (F := F) x1)) (val_main_v39 (F := F) x1))

/-- The reference's aggregated array is that function of its host product. -/
theorem agg_eq (x0 : (⟨S50000x128, .f32⟩ : BufTy).Contents (Elt F)) (x1 : (⟨S2x800000, .i32⟩ : BufTy).Contents (Elt F))
    (x2 : (⟨S128x128, .f32⟩ : BufTy).Contents (Elt F)) :
    val_main_v43 (F := F) x0 x1 x2 = aggOf (val_main_v30 (F := F) x0 x2) x1 := by
  unfold val_main_v43 val_main_v40 val_main_v37 aggOf
  rfl

end AnyFloats

/-- The host product is the sum of products, entry by entry. -/
theorem prod_eq (x0 : (⟨S50000x128, .f32⟩ : BufTy).Contents (Elt Ideal)) (x2 : (⟨S128x128, .f32⟩ : BufTy).Contents (Elt Ideal)) :
    val_main_v30 (F := Ideal) x0 x2 = Spec.prod x0 x2 := by
  funext i
  rw [val_main_v30_apply]
  unfold Spec.prod
  refine Finset.sum_congr rfl fun k _ => ?_
  have e1 : lidx_main_v30 i k = Spec.rowAt i k := funext fun a => Fin.ext (by match a with | ⟨0, _⟩ => rfl | ⟨1, _⟩ => rfl)
  have e2 : ridx_main_v30 i k = Spec.colAt i k := funext fun a => Fin.ext (by match a with | ⟨0, _⟩ => rfl | ⟨1, _⟩ => rfl)
  rw [e1, e2]

/-- The reference's activation, entry by entry. -/
theorem act_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 x4 : (⟨S128, .f32⟩ : BufTy).Contents (Elt Ideal)) (y : S50000x128.Idx) :
    val_main_v52 (F := Ideal) x0 x1 x2 x3 x4 y = Spec.act (aggOf (Spec.prod x0 x2) x1) (Spec.asRow x3) (Spec.asRow x4) y := by
  rw [val_main_v52_apply, val_main_v48_apply, val_main_v51_apply, val_main_v46_apply, val_main_v47_apply, val_main_cst_9_apply,
    val_main_v45_apply, val_main_v44_apply, val_main_v50_apply, val_main_v49_apply, agg_eq, prod_eq]
  have e3 : idx_main_v44 (idx_main_v45 y) = Spec.chanOf (Spec.laneOf y) := funext fun a => Fin.ext (by match a with | ⟨0, _⟩ => rfl)
  have e4 : idx_main_v49 (idx_main_v50 y) = Spec.chanOf (Spec.laneOf y) := funext fun a => Fin.ext (by match a with | ⟨0, _⟩ => rfl)
  rw [e3, e4]
  unfold Spec.act Spec.asRow
  generalize aggOf (Spec.prod x0 x2) x1 = A
  rfl

/-- The reference's result is the shared function of its arguments. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 x4 : (⟨S128, .f32⟩ : BufTy).Contents (Elt Ideal)) :
    val_main_v60 (F := Ideal) x0 x1 x2 x3 x4 = Spec.normalized (aggOf (Spec.prod x0 x2) x1) (Spec.asRow x3) (Spec.asRow x4) := by
  funext i
  rw [val_main_v60_apply, val_main_v59_apply, val_main_v58_apply, val_main_v56_apply, val_main_v55_apply, val_main_v54_apply,
    val_main_v57_apply, val_main_cst_11_apply, val_main_cst_10_apply, act_eq]
  have hk : ∀ k : Fin 128, val_main_v53 (F := Ideal) x0 x1 x2 x3 x4 (idx_main_v54 (idx_main_v55 (idx_main_v59 i)) k)
      = FloatOps.mulf (Spec.act (aggOf (Spec.prod x0 x2) x1) (Spec.asRow x3) (Spec.asRow x4) (Spec.rowAt i k))
          (Spec.act (aggOf (Spec.prod x0 x2) x1) (Spec.asRow x3) (Spec.asRow x4) (Spec.rowAt i k)) := fun k => by
    have e5 : idx_main_v54 (idx_main_v55 (idx_main_v59 i)) k = Spec.rowAt i k :=
      funext fun a => Fin.ext (by match a with | ⟨0, _⟩ => rfl | ⟨1, _⟩ => rfl)
    rw [val_main_v53_apply, act_eq, e5]
  rw [Finset.sum_congr rfl fun k _ => hk k]
  unfold Spec.normalized
  generalize Spec.act (aggOf (Spec.prod x0 x2) x1) (Spec.asRow x3) (Spec.asRow x4) = P
  rw [Ideal.ofBits_def, Ideal.ofBits_zero_f32, zero_add]
  generalize (∑ k : Fin 128, FloatOps.mulf (P (Spec.rowAt i k)) (P (Spec.rowAt i k))) = s
  rfl

end Cert.ReferenceIdeal.RefValue

end
-- ==== Proof.Linear.lean ====
/-
  The first region: the linear transform `h = x · W`, one block of 5000 rows per grid point.

  A grid point `t` stages rows `5000 t … 5000 t + 4999` of `x` and the whole of `W`, narrows both to bf16 (the identity on
  the extended reals), multiplies them on the MXU into a zero accumulator and stores the product whole.  So entry
  `(r, c)` of the block is `∑ k, x (5000 t + r, k) · W (k, c)`: the block is rows `5000 t …` of the whole-array product
  `Spec.prod x W`, and the ten blocks tile the 50000 rows.  Hence the region's result array is `Spec.prod x W`, whatever
  contents `V` the region is entered with.
-/
import proofs.«141192_j2714419331813_1_alg».proof.Proof.Gen.KernelIdeal.Frame
import proofs.«141192_j2714419331813_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.Pipeline (Dat)

/-- The product's two index builders inside one 5000-row block. -/
abbrev brow (j : S5000x128.Idx) (k : Fin 128) : S5000x128.Idx := fun a => match a with
  | ⟨0, _⟩ => ⟨(j 0).val, (j 0).isLt⟩
  | ⟨1, _⟩ => ⟨k.val, k.isLt⟩
abbrev bcol (j : S5000x128.Idx) (k : Fin 128) : S128x128.Idx := fun a => match a with
  | ⟨0, _⟩ => ⟨k.val, k.isLt⟩
  | ⟨1, _⟩ => ⟨(j 1).val, (j 1).isLt⟩

theorem hz : (![0, 0] : Fin 2 → Nat) = fun _ => 0 := funext fun a => by fin_cases a <;> rfl

/-! ## The body's product at an entry -/

theorem lhs_dot_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_dot_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_dot_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at entry `j` of the block: the row of the `x` block against the column of `W`. The two
    narrowings to bf16 are the identity on the extended reals and the accumulator is zero. -/
theorem pay_apply (x0 : Vec Ideal S5000x128 .f32) (x1 : Vec Ideal S128x128 .f32) (j : S5000x128.Idx) :
    k0_pay1 (F := Ideal) x0 x1 j = ∑ k : Fin 128, x0 (brow j k) * x1 (bcol j k) := by
  unfold k0_pay1
  show FloatOps.matmul dot_S5000x128_S128x128_S5000x128_1_0_0_1_n_n none _ _ (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow j k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx j ((ValueIdx.contrEquiv1 dot_S5000x128_S128x128_S5000x128_1_0_0_1_n_n 128 rfl rfl).symm k) = bcol j k := funext fun a => Fin.ext (by
    match a with
    | ⟨0, _⟩ => exact (rhs_dot_0 _ _).trans hk
    | ⟨1, _⟩ => exact rhs_dot_1 _ _)
  rw [el, er]
  rfl

/-! ## The blocks read off the arrays -/

variable (V : (c : Dev nD) → (b : Ref sig .tc) → Buf (Elt Ideal) ((c : Thread nD τ).loc b))

/-- The index maps, decided over the ten grid points: the `x` window and the result window sit at block row `t`,
    the weight window at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the `x` block at point `t` is entry `(5000 t + y 0, y 1)` of the array the region finds. -/
theorem x_block (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_arg0 : S50000x128.Idx → Ideal .f32) i := by
  obtain ⟨e0, e1, -, -, -, -⟩ := idx_facts t
  unfold iblk0
  rw [View.read_apply]
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight block at any point is the whole weight array: entry `y` of the block is the entry with `y`'s coordinates. -/
theorem w_block (c : Dev nD) (t : Fin cfg0.N) (y i : S128x128.Idx)
    (h0 : (i 0).val = (y 0).val) (h1 : (i 1).val = (y 1).val) :
    (iblk0 V c 1 t : Vec Ideal S128x128 .f32) y = (V c main_arg2 : S128x128.Idx → Ideal .f32) i := by
  obtain ⟨-, -, e2, e3, -, -⟩ := idx_facts t
  unfold iblk0
  rw [View.read_apply]
  show V c main_arg2 (((cfg0.win 1).blk t).view.emb y) = V c main_arg2 i
  refine congrArg (V c main_arg2) (funext fun a => Fin.ext ?_)
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

/-! ## What a point writes back, the cover, the array -/

/-- Point `t` writes back block `t` of the whole-array product of the arrays the region finds. -/
theorem flushed_eq (c : Dev nD) (t : Fin cfg0.N) :
    (dat0 V c).flushed 2 t = ((cfg0.win 2).blk t).view.read (Elt Ideal) (Spec.prod (V c main_arg0) (V c main_arg2)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  show k0_pay1 (F := Ideal) (iblk0 V c 0 t) (iblk0 V c 1 t) j = Spec.prod (V c main_arg0) (V c main_arg2) (((cfg0.win 2).blk t).view.emb j)
  refine (pay_apply (iblk0 V c 0 t) (iblk0 V c 1 t) j).trans ?_
  unfold Spec.prod
  refine Finset.sum_congr rfl fun k _ => ?_
  have hj0 : (j 0).val < 5000 := (j 0).isLt
  have hE0 : ((((cfg0.win 2).blk t).view.emb j) 0).val = 5000 * t.val + (j 0).val := by
    show win0_2.index t (0 : Fin 2) * 5000 + 1 * (j 0).val = _; rw [e4]; omega
  have hE1 : ((((cfg0.win 2).blk t).view.emb j) 1).val = (j 1).val := by
    show win0_2.index t (1 : Fin 2) * 128 + 1 * (j 1).val = _; rw [e5]; omega
  rw [x_block V c t (brow j k) (Spec.rowAt (((cfg0.win 2).blk t).view.emb j) k) hE0 rfl,
    w_block V c t (bcol j k) (Spec.colAt (((cfg0.win 2).blk t).view.emb j) k) rfl hE1]

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` lies in the block of point `r / 5000`: the ten blocks tile the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  obtain ⟨-, -, -, -, e4, e5⟩ := idx_facts ⟨(i 0).val / 5000, by rw [hN]; omega⟩
  rw [mem_blk]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The region's result array after its ten points: the product of the two arrays it was entered with. -/
theorem result (c : Dev nD) : (dat0 V c).arrAt 2 cfg0.N = Spec.prod (V c main_arg0) (V c main_arg2) :=
  (dat0 V c).arrAt_eq_of_cover 2 (Spec.prod (V c main_arg0) (V c main_arg2)) (fun t _ => flushed_eq V c t) cover

end Cert.KernelIdeal.Linear

end
-- ==== Proof.Normalize.lean ====
/-
  The second region: bias, PReLU and the row-wise L2 normalisation, one block of 5000 rows per grid point.

  A grid point `t` stages rows `5000 t … 5000 t + 4999` of the aggregated array and the two one-row vectors (bias, slope),
  forms `v = agg + bias`, `p = v` where `v ≥ 0` and `slope · v` elsewhere, and stores `p / max (sqrt (∑ₖ p(r,k)²), ε)`.
  A row's norm reads only that row, and a block holds whole rows, so entry `(r, c)` of the block is entry
  `(5000 t + r, c)` of the whole-array function `Spec.normalized`; the ten blocks tile the 50000 rows.  Hence the region's
  result array is `Spec.normalized` of the three arrays it is entered with, whatever contents `V` those are.
-/
import proofs.«141192_j2714419331813_1_alg».proof.Proof.Gen.KernelIdeal.Frame
import proofs.«141192_j2714419331813_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Normalize

open Cert.KernelIdeal Cert.KernelIdeal.Gen Idealize.ShloMosaic Idealize.ShloMosaic.TcCoe Idealize.SL.Sem
open Idealize.ShloMosaic.Pipeline (Dat)

/-! ## The whole-array function `Spec.normalized`, inside one 5000-row block -/

abbrev blane (j : S5000x128.Idx) : S1x128.Idx := fun a => match a with
  | ⟨0, _⟩ => ⟨0, Nat.one_pos⟩
  | ⟨1, _⟩ => ⟨(j 1).val, (j 1).isLt⟩
abbrev brow (j : S5000x128.Idx) (k : Fin 128) : S5000x128.Idx := fun a => match a with
  | ⟨0, _⟩ => ⟨(j 0).val, (j 0).isLt⟩
  | ⟨1, _⟩ => ⟨k.val, k.isLt⟩
/-- The one entry of a row's keepdims column. -/
abbrev bcolumn (j : S5000x128.Idx) : S5000x1.Idx := fun a => match a with
  | ⟨0, _⟩ => ⟨(j 0).val, (j 0).isLt⟩
  | ⟨1, _⟩ => ⟨0, Nat.one_pos⟩
/-- The row of a column entry. -/
abbrev browIdx (y : S5000x1.Idx) : S5000.Idx := fun a => match a with
  | ⟨0, _⟩ => ⟨(y 0).val, (y 0).isLt⟩

def bact (x0 : S5000x128.Idx → Ideal .f32) (b a : S1x128.Idx → Ideal .f32) : S5000x128.Idx → Ideal .f32 := fun j =>
  Scalar.select (FloatOps.cmpf .oge (FloatOps.addf (x0 j) (b (blane j))) (FloatOps.ofBits .f32 0x00000000#32))
    (FloatOps.addf (x0 j) (b (blane j))) (FloatOps.mulf (a (blane j)) (FloatOps.addf (x0 j) (b (blane j))))

theorem hz : (![0, 0] : Fin 2 → Nat) = fun _ => 0 := funext fun a => by fin_cases a <;> rfl

/-! ## The body's layout operations read at an index -/

/-- A one-row vector broadcast down the rows, read at `j`: the lane under `j`'s column. -/
theorem row_bcast {α : Type} (v : S1x128.Idx → α) (h : S1x128.Broadcasts S5000x128) (j : S5000x128.Idx) :
    broadcastTo S5000x128 v h j = v (blane j) :=
  broadcastTo_apply v h j (blane j) fun a => match a with
    | ⟨0, _⟩ => by show 0 = if (1 : Nat) = 1 then 0 else _; rw [if_pos rfl]
    | ⟨1, _⟩ => by show (j 1).val = if (128 : Nat) = 1 then 0 else (j 1).val; rw [if_neg (by decide)]

/-- A keepdims column broadcast along the lanes, read at `j`: the column's entry in `j`'s row. -/
theorem col_bcast {α : Type} (v : S5000x1.Idx → α) (h : S5000x1.Broadcasts S5000x128) (j : S5000x128.Idx) :
    broadcastTo S5000x128 v h j = v (bcolumn j) :=
  broadcastTo_apply v h j (bcolumn j) fun a => match a with
    | ⟨0, _⟩ => by show (j 0).val = if (5000 : Nat) = 1 then 0 else (j 0).val; rw [if_neg (by decide)]
    | ⟨1, _⟩ => by show 0 = if (1 : Nat) = 1 then 0 else _; rw [if_pos rfl]

/-- A vector of row sums cast to a keepdims column, read at a column entry: that row's sum. -/
theorem col_cast {α : Type} (v : S5000.Idx → α) (h : S5000.ShapeCasts S5000x1) (y : S5000x1.Idx) :
    shapeCast S5000x1 v h y = v (browIdx y) :=
  shapeCast_apply v h y (browIdx y) (by
    rewrite [Shape.rowMajor_val_two, Shape.rowMajor_val_one]
    have h1 : (y 1).val < 1 := (y 1).isLt
    show (y 0).val = (y 0).val * 1 + (y 1).val; omega)

/-- A lane sum of a block at row `r`: the sum over the 128 lanes of that row. -/
theorem lane_sum (src : FVec Ideal S5000x128 .f32) (h : S5000x128.Reduces [1] S5000) (hφ : FKind.Formats .f32)
    (hacc : (0x00000000#32 : BitVec 32) = 0x00000000#32) (j : S5000x128.Idx) :
    multiReduction .add [1] S5000 src 0x00000000#32 h hφ hacc (browIdx (bcolumn j)) = ∑ k : Fin 128, src (brow j k) := by
  refine (Ideal.multiReduction_add_single src 0x00000000#32 h hφ hacc (browIdx (bcolumn j))).trans ?_
  refine Finset.sum_congr rfl fun k _ => congrArg src (funext fun a => Fin.ext ?_)
  match a with
  | ⟨0, _⟩ => rfl
  | ⟨1, _⟩ => rfl

/-! ## What the body stores, at an entry -/

theorem pay_apply (x0 : Vec Ideal S5000x128 .f32) (b a : Vec Ideal S1x128 .f32) (j : S5000x128.Idx) :
    k1_pay1 (F := Ideal) x0 b a j = FloatOps.divf (bact x0 b a j)
      (FloatOps.maximumf (FloatOps.sqrt (∑ k : Fin 128, FloatOps.mulf (bact x0 b a (brow j k)) (bact x0 b a (brow j k))))
        (FloatOps.ofBits .f32 0x2B8CBCCC#32)) := by
  unfold k1_pay1
  dsimp only
  simp only [divf, maximumf, sqrt, select, cmpf, broadcast, shapeCast_self, col_bcast, col_cast]
  rw [lane_sum]
  simp only [mulf, addf, select, cmpf, broadcast, row_bcast]
  rfl

/-! ## The blocks read off the arrays -/

variable (V : (c : Dev nD) → (b : Ref sig .tc) → Buf (Elt Ideal) ((c : Thread nD τ).loc b))

/-- The index maps, decided over the ten grid points: the aggregated window and the result window sit at block row
    `t`, the two one-row windows at block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `y` of the aggregated block at point `t` is entry `(5000 t + y 0, y 1)` of the array the region finds. -/
theorem agg_block (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c main_v43 : S50000x128.Idx → Ideal .f32) i := by
  obtain ⟨e0, e1, -, -, -, -, -, -⟩ := idx_facts t
  unfold iblk1
  rw [View.read_apply]
  show V c main_v43 (((cfg1.win 0).blk t).view.emb y) = V c main_v43 i
  refine congrArg (V c main_v43) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The bias block at any point is the whole one-row bias. -/
theorem bias_block (c : Dev nD) (t : Fin cfg1.N) (y i : S1x128.Idx)
    (h0 : (i 0).val = (y 0).val) (h1 : (i 1).val = (y 1).val) :
    (iblk1 V c 1 t : Vec Ideal S1x128 .f32) y = (V c main_v44 : S1x128.Idx → Ideal .f32) i := by
  obtain ⟨-, -, e2, e3, -, -, -, -⟩ := idx_facts t
  unfold iblk1
  rw [View.read_apply]
  show V c main_v44 (((cfg1.win 1).blk t).view.emb y) = V c main_v44 i
  refine congrArg (V c main_v44) (funext fun a => Fin.ext ?_)
  match a with
  | ⟨0, _⟩ => show win1_1.index t (0 : Fin 2) * 1 + 1 * (y 0).val = (i 0).val; rw [e2, h0]; omega
  | ⟨1, _⟩ => show win1_1.index t (1 : Fin 2) * 128 + 1 * (y 1).val = (i 1).val; rw [e3, h1]; omega

/-- The slope block at any point is the whole one-row slope. -/
theorem slope_block (c : Dev nD) (t : Fin cfg1.N) (y i : S1x128.Idx)
    (h0 : (i 0).val = (y 0).val) (h1 : (i 1).val = (y 1).val) :
    (iblk1 V c 2 t : Vec Ideal S1x128 .f32) y = (V c main_v45 : S1x128.Idx → Ideal .f32) i := by
  obtain ⟨-, -, -, -, e4, e5, -, -⟩ := idx_facts t
  unfold iblk1
  rw [View.read_apply]
  show V c main_v45 (((cfg1.win 2).blk t).view.emb y) = V c main_v45 i
  refine congrArg (V c main_v45) (funext fun a => Fin.ext ?_)
  match a with
  | ⟨0, _⟩ => show win1_2.index t (0 : Fin 2) * 1 + 1 * (y 0).val = (i 0).val; rw [e4, h0]; omega
  | ⟨1, _⟩ => show win1_2.index t (1 : Fin 2) * 128 + 1 * (y 1).val = (i 1).val; rw [e5, h1]; omega

/-- The activated entry of a block is the activated entry of the arrays at the block's place. -/
theorem bact_block (c : Dev nD) (t : Fin cfg1.N) (y : S5000x128.Idx) (i : S50000x128.Idx)
    (h0 : (i 0).val = 5000 * t.val + (y 0).val) (h1 : (i 1).val = (y 1).val) :
    bact (iblk1 V c 0 t) (iblk1 V c 1 t) (iblk1 V c 2 t) y = Spec.act (V c main_v43) (V c main_v44) (V c main_v45) i := by
  unfold bact Spec.act
  rw [agg_block V c t y i h0 h1, bias_block V c t (blane y) (Spec.laneOf i) rfl h1,
    slope_block V c t (blane y) (Spec.laneOf i) rfl h1]

/-! ## What a point writes back, the cover, the array -/

/-- Point `t` writes back block `t` of `Spec.normalized` of the arrays the region finds. -/
theorem flushed_eq (c : Dev nD) (t : Fin cfg1.N) :
    (dat1 V c).flushed 3 t = ((cfg1.win 3).blk t).view.read (Elt Ideal) (Spec.normalized (V c main_v43) (V c main_v44) (V c main_v45)) := by
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  funext j
  show k1_pay1 (F := Ideal) (iblk1 V c 0 t) (iblk1 V c 1 t) (iblk1 V c 2 t) j
    = Spec.normalized (V c main_v43) (V c main_v44) (V c main_v45) (((cfg1.win 3).blk t).view.emb j)
  refine (pay_apply (iblk1 V c 0 t) (iblk1 V c 1 t) (iblk1 V c 2 t) j).trans ?_
  unfold Spec.normalized
  have hj0 : (j 0).val < 5000 := (j 0).isLt
  have hE0 : ((((cfg1.win 3).blk t).view.emb j) 0).val = 5000 * t.val + (j 0).val := by
    show win1_3.index t (0 : Fin 2) * 5000 + 1 * (j 0).val = _; rw [e6]; omega
  have hE1 : ((((cfg1.win 3).blk t).view.emb j) 1).val = (j 1).val := by
    show win1_3.index t (1 : Fin 2) * 128 + 1 * (j 1).val = _; rw [e7]; omega
  rw [bact_block V c t j (((cfg1.win 3).blk t).view.emb j) hE0 hE1]
  refine congrArg (fun s => FloatOps.divf _ (FloatOps.maximumf (FloatOps.sqrt s) _)) (Finset.sum_congr rfl fun k _ => ?_)
  rw [bact_block V c t (brow j k) (Spec.rowAt (((cfg1.win 3).blk t).view.emb j) k) hE0 rfl]

/-- An index of the result array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v46).slice (win1_3.rect t)).set ↔ _
  rw [View.set_slice_whole, Rect.mem_set_unit]
  exact Iff.rfl

/-- Row `r` lies in the block of point `r / 5000`: the ten blocks tile the array. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_3 _, ?_⟩
  obtain ⟨-, -, -, -, -, -, e6, e7⟩ := idx_facts ⟨(i 0).val / 5000, by rw [hN]; omega⟩
  rw [mem_blk]
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e7]; omega

/-- The region's result array after its ten points: `Spec.normalized` of the three arrays it was entered with. -/
theorem result (c : Dev nD) :
    (dat1 V c).arrAt 3 cfg1.N = Spec.normalized (V c main_v43) (V c main_v44) (V c main_v45) :=
  (dat1 V c).arrAt_eq_of_cover 3 (Spec.normalized (V c main_v43) (V c main_v44) (V c main_v45)) (fun t _ => flushed_eq V c t) cover

end Cert.KernelIdeal.Normalize

end
-- ==== Proof.Chain.lean ====
/-
  The kernel program's host stretches, read at the buffers the two regions and the result depend on.

  Before the first region the host computes, from the edge list alone, the source and destination node of every
  edge with the self-loops appended, and each edge's normalisation `dinv[src] · dinv[dst]`; these are the reference's
  own stages of the same names, operation for operation.  The first region is entered with `x` and `W` as launched.
  Between the regions the host gathers the rows of the first region's result, scales them and scatter-adds them:
  the reference's message passing `aggOf`, applied to whatever the first region left, and it lays the bias and the
  slope out as one row each.  No stretch writes an argument, and the first region writes only its own result.
-/
import proofs.«141192_j2714419331813_1_alg».proof.Proof.Gen.KernelIdeal.Frame
import proofs.«141192_j2714419331813_1_alg».proof.Proof.RefValue
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Up to the first region -/

set_option maxHeartbeats 4000000 in
/-- The first region is entered with `x` as launched. -/
theorem entry_x (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

set_option maxHeartbeats 4000000 in
/-- The first region is entered with `W` as launched. -/
theorem entry_w (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

set_option maxHeartbeats 4000000 in
/-- The bias is as launched when the first region is entered. -/
theorem entry_bias (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

set_option maxHeartbeats 4000000 in
/-- The slope is as launched when the first region is entered. -/
theorem entry_slope (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

set_option maxHeartbeats 8000000 in
/-- The source node of every edge, self-loops appended: the reference's stage of the same operations. -/
theorem entry_src (c : Dev nD) :
    W3 m ρ c (Proc.devRef .tc main_v5) = Cert.ReferenceIdeal.ReadP.val_main_v5 (F := F) (m ((c : Thread nD τ).loc main_arg1)) := by
  show StableHlo.after hostOps0_2 (StableHlo.after hostOps0_1 (StableHlo.after hostOps0 (W0 m ρ c))) (Proc.devRef .tc main_v5) = _
  after_results_simp <;> rfl

set_option maxHeartbeats 8000000 in
/-- The destination node of every edge, self-loops appended. -/
theorem entry_dst (c : Dev nD) :
    W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  after_results_simp <;> rfl

set_option maxHeartbeats 16000000 in
/-- Every edge's normalisation `dinv[src] · dinv[dst]`, the degrees counted by a scatter-add of ones. -/
theorem entry_norm (c : Dev nD) :
    W3 m ρ c (Proc.devRef .tc main_v29) = Cert.ReferenceIdeal.ReadP.val_main_v29 (F := F) (m ((c : Thread nD τ).loc main_arg1)) := by
  show StableHlo.after hostOps0_2 (StableHlo.after hostOps0_1 (StableHlo.after hostOps0 (W0 m ρ c))) (Proc.devRef .tc main_v29) = _
  after_results_simp <;> rfl

/-! ## Between the regions -/

/-- The first region writes only its own result: the edge tables and the per-channel vectors stay as it found them. -/
theorem mid_src (c : Dev nD) :
    W4 m ρ c (Proc.devRef .tc main_v5) = Cert.ReferenceIdeal.ReadP.val_main_v5 (F := F) (m ((c : Thread nD τ).loc main_arg1)) :=
  (W4_of_ne m ρ c main_v5 (by decide)).trans (entry_src m ρ c)
theorem mid_dst (c : Dev nD) :
    W4 m ρ c (Proc.devRef .tc main_v6) = Cert.ReferenceIdeal.ReadP.val_main_v6 (F := F) (m ((c : Thread nD τ).loc main_arg1)) :=
  (W4_of_ne m ρ c main_v6 (by decide)).trans (entry_dst m ρ c)
theorem mid_norm (c : Dev nD) :
    W4 m ρ c (Proc.devRef .tc main_v29) = Cert.ReferenceIdeal.ReadP.val_main_v29 (F := F) (m ((c : Thread nD τ).loc main_arg1)) :=
  (W4_of_ne m ρ c main_v29 (by decide)).trans (entry_norm m ρ c)
theorem mid_bias (c : Dev nD) : W4 m ρ c (Proc.devRef .tc main_arg3) = m ((c : Thread nD τ).loc main_arg3) :=
  (W4_of_ne m ρ c main_arg3 (by decide)).trans (entry_bias m ρ c)
theorem mid_slope (c : Dev nD) : W4 m ρ c (Proc.devRef .tc main_arg4) = m ((c : Thread nD τ).loc main_arg4) :=
  (W4_of_ne m ρ c main_arg4 (by decide)).trans (entry_slope m ρ c)

set_option maxHeartbeats 8000000 in
/-- The second region is entered with the reference's message passing of whatever the first region left. -/
theorem mid_agg (c : Dev nD) :
    W5 m ρ c (Proc.devRef .tc main_v43)
      = Cert.ReferenceIdeal.RefValue.aggOf (F := F) (W4 m ρ c (Proc.devRef .tc main_v30)) (m ((c : Thread nD τ).loc main_arg1)) := by
  show StableHlo.after hostOps1 (W4 m ρ c) (Proc.devRef .tc main_v43) = _
  after_results_simp
  rw [mid_src m ρ c, mid_dst m ρ c, mid_norm m ρ c]
  rfl

set_option maxHeartbeats 4000000 in
/-- … with the bias laid out as one row, -/
theorem bias_row (c : Dev nD) :
    W5 m ρ c (Proc.devRef .tc main_v44) = shapeCast S1x128 (m ((c : Thread nD τ).loc main_arg3)) shapeCasts_S128_S1x128 := by
  show StableHlo.after hostOps1 (W4 m ρ c) (Proc.devRef .tc main_v44) = _
  after_results_simp
  rw [mid_bias m ρ c]
  rfl

set_option maxHeartbeats 4000000 in
/-- … and the slope laid out as one row. -/
theorem slope_row (c : Dev nD) :
    W5 m ρ c (Proc.devRef .tc main_v45) = shapeCast S1x128 (m ((c : Thread nD τ).loc main_arg4)) shapeCasts_S128_S1x128 := by
  show StableHlo.after hostOps1 (W4 m ρ c) (Proc.devRef .tc main_v45) = _
  after_results_simp
  rw [mid_slope m ρ c]
  rfl

end Cert.KernelIdeal.Chain

end
-- ==== Proof.KernelValue.lean ====
/-
  The kernel program's result as the shared function of its arguments.

  The last boundary's contents at the result buffer are what the second region leaves: `Spec.normalized` of the three
  arrays it is entered with.  Those are the reference's message passing of the first region's result, and the bias and
  the slope as one row each; the first region's result is `Spec.prod` of `x` and `W` as launched.  Composed, the
  result is `shared x edges W bias slope`, the same function the reference's stages compose to.
-/
import proofs.«141192_j2714419331813_1_alg».proof.Proof.KernelRun
import proofs.«141192_j2714419331813_1_alg».proof.Proof.Linear
import proofs.«141192_j2714419331813_1_alg».proof.Proof.Normalize
import proofs.«141192_j2714419331813_1_alg».proof.Proof.Chain

set_option maxRecDepth 16384

noncomputable section

namespace Cert.KernelIdeal.KernelValue

open Cert.KernelIdeal Cert.KernelIdeal.Gen Idealize.ShloMosaic Idealize.ShloMosaic.TcCoe Idealize.SL.Sem

/-- A per-channel vector reshaped to one row holds, in each lane, that channel's entry. -/
theorem row_cast (v : S128.Idx → Ideal .f32) (h : S128.ShapeCasts S1x128) : shapeCast S1x128 v h = Spec.asRow v := by
  funext i
  exact shapeCast_apply v h i (Spec.chanOf i) (by
    rewrite [Shape.rowMajor_val_one, Shape.rowMajor_val_two]
    have h0 : (i 0).val < 1 := (i 0).isLt
    show (i 1).val = (i 0).val * 128 + (i 1).val; omega)

variable (m : (ℓ : Loc nD τ sig) → Buf (Elt Ideal) ℓ) (ρ : Dev nD → PrngReg)

/-- The first region's result: `x · W` of the arguments as launched. -/
theorem first_result (c : Dev nD) :
    W4 m ρ c (Proc.devRef .tc main_v30)
      = Spec.prod (m ((c : Thread nD τ).loc main_arg0)) (m ((c : Thread nD τ).loc main_arg2)) := by
  refine (W4_arr m ρ c 2).trans ?_
  refine (Linear.result (V3 m ρ) c).trans ?_
  rw [show V3 m ρ c main_arg0 = m ((c : Thread nD τ).loc main_arg0) from Chain.entry_x m ρ c,
    show V3 m ρ c main_arg2 = m ((c : Thread nD τ).loc main_arg2) from Chain.entry_w m ρ c]

/-- The program's result buffer at the last boundary: the shared function of the five arguments as launched. -/
theorem result_value (c : Dev nD) :
    W6 m ρ c (Proc.devRef .tc main_v46)
      = Spec.normalized
          (Cert.ReferenceIdeal.RefValue.aggOf (Spec.prod (m ((c : Thread nD τ).loc main_arg0)) (m ((c : Thread nD τ).loc main_arg2)))
            (m ((c : Thread nD τ).loc main_arg1)))
          (Spec.asRow (m ((c : Thread nD τ).loc main_arg3))) (Spec.asRow (m ((c : Thread nD τ).loc main_arg4))) := by
  refine (W6_arr m ρ c 3).trans ?_
  refine (Normalize.result (V5 m ρ) c).trans ?_
  rw [show V5 m ρ c main_v43 = _ from Chain.mid_agg m ρ c, show V5 m ρ c main_v44 = _ from Chain.bias_row m ρ c,
    show V5 m ρ c main_v45 = _ from Chain.slope_row m ρ c, first_result m ρ c, row_cast, row_cast]

/-- The run of the kernel program, read: the result buffer at the shared function, the arguments unchanged. -/
theorem run : θ_run defs (onTc (τ := τ) (main (F := Ideal))) ⟨m, fun _ => 0, ρ⟩ (fun r => ∀ c : Dev nD,
      r.2.mem ((c.tc : Thread nD τ).loc main_v46)
        = Spec.normalized
            (Cert.ReferenceIdeal.RefValue.aggOf (Spec.prod (m ((c : Thread nD τ).loc main_arg0)) (m ((c : Thread nD τ).loc main_arg2)))
              (m ((c : Thread nD τ).loc main_arg1)))
            (Spec.asRow (m ((c : Thread nD τ).loc main_arg3))) (Spec.asRow (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_value m ρ c), (h c).2⟩) (GenRun.run_named m ρ)

end Cert.KernelIdeal.KernelValue

end
-- ==== Proof.lean ====
/-
  A graph-convolution layer against its jnp reference, over the extended reals.

  Both programs compute, from node features `x`, an edge list, a weight `W`, a bias and a PReLU slope:
  `h = x · W`; the symmetric normalisation `dinv[src] · dinv[dst]` of every edge (self-loops appended, degrees counted
  by a scatter-add of ones); `agg`, the rows of `h` gathered at the sources, scaled, and scatter-added at the
  destinations; `p = PReLU (agg + bias)`; and each row of `p` over its Euclidean norm floored at `ε`.
  The kernel program does the first and the last step in two row-blocked regions (5000 rows a grid point, ten points
  each) and the message passing on the host between them; the reference does everything on the host.

  Why the two agree, index by index: the first region's ten blocks tile `x · W` (a bf16 narrowing is the identity on
  the extended reals, and a product into a zero accumulator is the plain sum of products: `Linear`); the host stretch
  between the regions is the reference's own message passing, applied to that array (`Chain`, with the reference's
  stages of `RefRead`); the second region's ten blocks tile the row-normalised activation (a row's norm reads only
  that row: `Normalize`); and the reference's last stages are that same function (`RefValue`: the host's lane sum
  starts from a zero, its square root and quotient are the kernel's on the extended reals).  Both sides are stated
  with one term, `Spec.normalized (aggOf (Spec.prod x W) edges) bias slope`; the message passing `aggOf` is never
  opened, and no step needs the inputs finite.
  The three frames: the kernel programs' are the generated ones; the reference's is its run with the result dropped.
  The idealisation rewrote nothing, so `preserves` is `True`.
-/
import proofs.«141192_j2714419331813_1_alg».proof.Defs
import proofs.«141192_j2714419331813_1_alg».proof.Proof.Gen.Kernel
import proofs.«141192_j2714419331813_1_alg».proof.Proof.Gen.Kernel.Skeleton
import proofs.«141192_j2714419331813_1_alg».proof.Proof.Gen.Kernel.Launch
import proofs.«141192_j2714419331813_1_alg».proof.Proof.Gen.Kernel.Points
import proofs.«141192_j2714419331813_1_alg».proof.Proof.Gen.Kernel.Frame
import proofs.«141192_j2714419331813_1_alg».proof.Proof.Gen.KernelIdeal
import proofs.«141192_j2714419331813_1_alg».proof.Proof.Gen.KernelIdeal.Skeleton
import proofs.«141192_j2714419331813_1_alg».proof.Proof.Gen.KernelIdeal.Launch
import proofs.«141192_j2714419331813_1_alg».proof.Proof.Gen.KernelIdeal.Points
import proofs.«141192_j2714419331813_1_alg».proof.Proof.Gen.KernelIdeal.Frame
import proofs.«141192_j2714419331813_1_alg».proof.Proof.Gen.ReferenceIdeal
import proofs.«141192_j2714419331813_1_alg».proof.Proof.Gen.Pre_finite_inputs
import proofs.«141192_j2714419331813_1_alg».proof.Proof.RefRead
import proofs.«141192_j2714419331813_1_alg».proof.Proof.RefValue
import proofs.«141192_j2714419331813_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result at `Spec.normalized (aggOf (Spec.prod x W) edges) bias slope` of arguments that
    agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v60_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
